-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S1376x256x8 : Shape := ⟨3, ![1376, 256, 8]⟩
abbrev S11008 : Shape := ⟨1, ![11008]⟩
abbrev S4096x1376 : Shape := ⟨2, ![4096, 1376]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S1376x256x8 : S_.BroadcastsInDim S1376x256x8 (![] : Fin 0 → Fin S1376x256x8.rank)
  reducesTo_S1376x256x8_S_d0_1_2 : S1376x256x8.ReducesTo [0, 1, 2] S_
  bcast_S_S11008 : S_.BroadcastsInDim S11008 (![] : Fin 0 → Fin S11008.rank)
  reducesTo_S11008_S_d0 : S11008.ReducesTo [0] S_
  bcast_S_S4096x1376 : S_.BroadcastsInDim S4096x1376 (![] : Fin 0 → Fin S4096x1376.rank)
  reducesTo_S4096x1376_S_d0_1 : S4096x1376.ReducesTo [0, 1] S_

variable [Facts]

def fn_part1 {F : FTy → Type} [FloatOps F] (main_arg3 : IVec S4096x1376 32) (main_v13 : IVec S_ 1) (main_v15 : IVec S4096x1376 1) (main_c_5 : IVec S_ 1) : IVec S_ 1 :=
  let main_v16 : IVec S_ 1 := (fun x v => Host.reduce IntOp.andi x v reducesTo_S4096x1376_S_d0_1 h_S_) main_v15 main_c_5
  let main_v17 : IVec S_ 1 := andi main_v13 main_v16
  let main_c_6 : IVec S_ 32 := constantI S_ 32 256#32
  let main_v18 : IVec S4096x1376 32 := broadcastInDim S4096x1376 ![] bcast_S_S4096x1376 main_c_6
  let main_v19 : IVec S4096x1376 1 := cmpi .slt main_arg3 main_v18
  let main_c_7 : IVec S_ 1 := constantI S_ 1 1#1
  let main_v20 : IVec S_ 1 := (fun x v => Host.reduce IntOp.andi x v reducesTo_S4096x1376_S_d0_1 h_S_) main_v19 main_c_7
  let main_v21 : IVec S_ 1 := andi main_v17 main_v20
  main_v21

def fn {F : FTy → Type} [FloatOps F] (main_arg0 : FVec F S32x4096 .f32) (main_arg1 : FVec F S1376x256x8 .f32) (main_arg2 : FVec F S11008 .f32) (main_arg3 : IVec S4096x1376 32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S1376x256x8 .f32 := Host.absf main_arg1
  let main_cst_0 : FVec F S_ .f32 := constant S_ .f32 0x7F800000#32
  let main_v5 : FVec F S1376x256x8 .f32 := broadcastInDim S1376x256x8 ![] bcast_S_S1376x256x8 main_cst_0
  let main_v6 : IVec S1376x256x8 1 := cmpf .olt main_v4 main_v5
  let main_c_1 : IVec S_ 1 := constantI S_ 1 1#1
  let main_v7 : IVec S_ 1 := (fun x v => Host.reduce IntOp.andi x v reducesTo_S1376x256x8_S_d0_1_2 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_c_4 : IVec S_ 32 := constantI S_ 32 0#32
  let main_v14 : IVec S4096x1376 32 := broadcastInDim S4096x1376 ![] bcast_S_S4096x1376 main_c_4
  let main_v15 : IVec S4096x1376 1 := cmpi .sge main_arg3 main_v14
  let main_c_5 : IVec S_ 1 := constantI S_ 1 1#1
  fn_part1 (F := F) main_arg3 main_v13 main_v15 main_c_5
-- ==== Kernel.lean ====
abbrev S32x4096 : Shape := ⟨2, ![32, 4096]⟩
abbrev S1376x256x8 : Shape := ⟨3, ![1376, 256, 8]⟩
abbrev S11008 : Shape := ⟨1, ![11008]⟩
abbrev S4096x1376 : Shape := ⟨2, ![4096, 1376]⟩
abbrev S1376x4096 : Shape := ⟨2, ![1376, 4096]⟩
abbrev S1376x8x256 : Shape := ⟨3, ![1376, 8, 256]⟩
abbrev S11008x1 : Shape := ⟨2, ![11008, 1]⟩
abbrev S11008x32 : Shape := ⟨2, ![11008, 32]⟩
abbrev S32x8x256 : Shape := ⟨3, ![32, 8, 256]⟩
abbrev S256x1 : Shape := ⟨2, ![256, 1]⟩
abbrev S256x32 : Shape := ⟨2, ![256, 32]⟩
abbrev S1x4096 : Shape := ⟨2, ![1, 4096]⟩
abbrev S4096 : Shape := ⟨1, ![4096]⟩
abbrev S256x4096 : Shape := ⟨2, ![256, 4096]⟩
abbrev S1x8x256 : Shape := ⟨3, ![1, 8, 256]⟩
abbrev S8x256 : Shape := ⟨2, ![8, 256]⟩
abbrev S8x32 : Shape := ⟨2, ![8, 32]⟩
abbrev S8x1 : Shape := ⟨2, ![8, 1]⟩
abbrev S32x11008 : Shape := ⟨2, ![32, 11008]⟩

abbrev nBuf : Space → Nat
  | .hbm => 10
  | .vmem => 9
  | .smem => 0
  | _ => 0

abbrev bufTy : (tb : Table) → Fin (tcTables nBuf tb) → BufTy
  | .hbm, ⟨0, _⟩ => ⟨S32x4096, .f32⟩
  | .hbm, ⟨1, _⟩ => ⟨S1376x256x8, .f32⟩
  | .hbm, ⟨2, _⟩ => ⟨S11008, .f32⟩
  | .hbm, ⟨3, _⟩ => ⟨S4096x1376, .i32⟩
  | .hbm, ⟨4, _⟩ => ⟨S1376x4096, .i32⟩
  | .hbm, ⟨5, _⟩ => ⟨S1376x8x256, .f32⟩
  | .hbm, ⟨6, _⟩ => ⟨S11008x1, .f32⟩
  | .hbm, ⟨7, _⟩ => ⟨S32x4096, .bf16⟩
  | .hbm, ⟨8, _⟩ => ⟨S11008x32, .f32⟩
  | .hbm, ⟨9, _⟩ => ⟨S32x11008, .f32⟩
  | .local _ .vmem, ⟨0, _⟩ => ⟨S32x4096, .bf16⟩
  | .local _ .vmem, ⟨1, _⟩ => ⟨S32x4096, .i32⟩
  | .local _ .vmem, ⟨2, _⟩ => ⟨S32x4096, .i32⟩
  | .local _ .vmem, ⟨3, _⟩ => ⟨S32x8x256, .f32⟩
  | .local _ .vmem, ⟨4, _⟩ => ⟨S32x8x256, .f32⟩
  | .local _ .vmem, ⟨5, _⟩ => ⟨S256x1, .f32⟩
  | .local _ .vmem, ⟨6, _⟩ => ⟨S256x1, .f32⟩
  | .local _ .vmem, ⟨7, _⟩ => ⟨S256x32, .f32⟩
  | .local _ .vmem, ⟨8, _⟩ => ⟨S256x32, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_off1 (k0_t1 : Fin k0_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v3 : BitVec 32 := Scalar.muli arg6 c1_i32_2
  let v4 : BitVec 32 := Scalar.addi c0_i32_3 v3
  let v5 : Index := Scalar.indexCast v4
  let c0_4 : Index := 0#32
  ![v5.toNat, 0]
def k0_off2 (k0_t1 : Fin k0_t1_loop.trips) : Fin 3 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v3 : BitVec 32 := Scalar.muli arg6 c1_i32_2
  let v4 : BitVec 32 := Scalar.addi c0_i32_3 v3
  let v18 : Index := Scalar.indexCast v4
  let c0_5 : Index := 0#32
  let c0_6 : Index := 0#32
  ![v18.toNat, 0, 0]
def k0_mult1 (k0_t1 : Fin k0_t1_loop.trips) : BitVec 32 :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v3 : BitVec 32 := Scalar.muli arg6 c1_i32_2
  let v4 : BitVec 32 := Scalar.addi c0_i32_3 v3
  let c8_i32 : BitVec 32 := 8#32
  let v23 : BitVec 32 := Scalar.muli v4 c8_i32
  v23
def k0_off3 (k0_t1 : Fin k0_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v3 : BitVec 32 := Scalar.muli arg6 c1_i32_2
  let v4 : BitVec 32 := Scalar.addi c0_i32_3 v3
  let c8_i32 : BitVec 32 := 8#32
  let v23 : BitVec 32 := Scalar.muli v4 c8_i32
  let v24 : BitVec 32 := v23
  let v25 : Index := Scalar.indexCast v24
  let c0_8 : Index := 0#32
  ![v25.toNat, 0]
def k0_off4 (k0_t1 : Fin k0_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v3 : BitVec 32 := Scalar.muli arg6 c1_i32_2
  let v4 : BitVec 32 := Scalar.addi c0_i32_3 v3
  let c8_i32 : BitVec 32 := 8#32
  let v23 : BitVec 32 := Scalar.muli v4 c8_i32
  let v24 : BitVec 32 := v23
  let v30 : Index := Scalar.indexCast v24
  let c0_9 : Index := 0#32
  ![v30.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S4096x1376_S1376x4096_1_0 : S4096x1376.Transposes [1, 0] S1376x4096
  transposes_S1376x256x8_S1376x8x256_0_2_1 : S1376x256x8.Transposes [0, 2, 1] S1376x8x256
  shapeCasts_S11008_S11008x1 : S11008.ShapeCasts S11008x1
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  h_S1x4096 : 0 < S1x4096.numel
  shapeCasts_S1x4096_S4096 : S1x4096.ShapeCasts S4096
  iota_S256x1_d0_w32 : S256x1.Iotas .tc 32 [0]
  shapeCasts_S4096_S1x4096 : S4096.ShapeCasts S1x4096
  broadcasts_S256x1_S256x4096 : S256x1.Broadcasts S256x4096
  broadcasts_S1x4096_S256x4096 : S1x4096.Broadcasts S256x4096
  natLt_1_32 : 1 < 32
  h_S1x8x256 : 0 < S1x8x256.numel
  shapeCasts_S1x8x256_S8x256 : S1x8x256.ShapeCasts S8x256
  h_S8x1 : 0 < S8x1.numel
  shapeCasts_S8x1_S8x1 : S8x1.ShapeCasts S8x1
  broadcasts_S8x1_S8x32 : S8x1.Broadcasts S8x32
  h_S8x32 : 0 < S8x32.numel
  transposes_S11008x32_S32x11008_1_0 : S11008x32.Transposes [1, 0] S32x11008
  dot_S256x4096_S32x4096_S256x32_1_1_0_0_n_n_wf : DotDims.WF S256x4096 S32x4096 S256x32 [1] [1] [0] [0] [] []
  dot_S8x256_S256x32_S8x32_1_0_0_1_n_n_wf : DotDims.WF S8x256 S256x32 S8x32 [1] [0] [0] [1] [] []
  hrank0 : 0 < grid0.rank
  k0_t1_ok : k0_t1_loop.OK
  k0_off1_inb : ∀ k0_t1 : Fin k0_t1_loop.trips, ∀ a, (k0_off1 k0_t1) a + S1x4096.size a ≤ S32x4096.size a
  k0_off2_inb : ∀ k0_t1 : Fin k0_t1_loop.trips, ∀ a, (k0_off2 k0_t1) a + S1x8x256.size a ≤ S32x8x256.size a
  k0_mult1_dvd : ∀ k0_t1 : Fin k0_t1_loop.trips, 8 ∣ (k0_mult1 k0_t1).toNat
  k0_off3_inb : ∀ k0_t1 : Fin k0_t1_loop.trips, ∀ a, (k0_off3 k0_t1) a + S8x1.size a ≤ S256x1.size a
  k0_off4_inb : ∀ k0_t1 : Fin k0_t1_loop.trips, ∀ a, (k0_off4 k0_t1) a + S8x32.size a ≤ S256x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .bf16 = 32 ∨ (Rect.block (s := S32x4096) S32x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S1376x4096.size a
  hwx0_1 : ∀ i : grid0.Coords, EltTy.bits .i32 = 32 ∨ (Rect.block (s := S1376x4096) S32x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x8x256.size a ≤ S1376x8x256.size a
  hwx0_2 : ∀ i : grid0.Coords, EltTy.bits .f32 = 32 ∨ (Rect.block (s := S1376x8x256) S32x8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S11008x1.size a
  hwx0_3 : ∀ i : grid0.Coords, EltTy.bits .f32 = 32 ∨ (Rect.block (s := S11008x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S11008x32.size a
  hwx0_4 : ∀ i : grid0.Coords, EltTy.bits .f32 = 32 ∨ (Rect.block (s := S11008x32) S256x32.size (cc0_transform_4 i) (hinb0_4 i)).WholeWords (EltTy.packing .f32)

variable [Facts₀]

def dot_S256x4096_S32x4096_S256x32_1_1_0_0_n_n : DotDims S256x4096 S32x4096 S256x32 where
  lhsContracting := [1]
  rhsContracting := [1]
  lhsNonContracting := [0]
  rhsNonContracting := [0]
  lhsBatch := []
  rhsBatch := []
  wf := dot_S256x4096_S32x4096_S256x32_1_1_0_0_n_n_wf
def dot_S8x256_S256x32_S8x32_1_0_0_1_n_n : DotDims S8x256 S256x32 S8x32 where
  lhsContracting := [1]
  rhsContracting := [0]
  lhsNonContracting := [0]
  rhsNonContracting := [1]
  lhsBatch := []
  rhsBatch := []
  wf := dot_S8x256_S256x32_S8x32_1_0_0_1_n_n_wf

abbrev win0_0 : Pipeline.Window sig grid0 :=
  Pipeline.Window.ofSpec (Memref.whole main_v3) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x4096 : Shape := ⟨2, ![32, 4096]⟩
abbrev S1376x256x8 : Shape := ⟨3, ![1376, 256, 8]⟩
abbrev S11008 : Shape := ⟨1, ![11008]⟩
abbrev S4096x1376 : Shape := ⟨2, ![4096, 1376]⟩
abbrev S1376 : Shape := ⟨1, ![1376]⟩
abbrev S_ : Shape := ⟨0, ![]⟩
abbrev S4096x1376x1 : Shape := ⟨3, ![4096, 1376, 1]⟩
abbrev S4096x1376x2 : Shape := ⟨3, ![4096, 1376, 2]⟩
abbrev S4096x1376x8 : Shape := ⟨3, ![4096, 1376, 8]⟩
abbrev S4096x11008 : Shape := ⟨2, ![4096, 11008]⟩
abbrev S32x11008 : Shape := ⟨2, ![32, 11008]⟩
abbrev S1x11008 : Shape := ⟨2, ![1, 11008]⟩

abbrev nBuf : Space → Nat
  | .hbm => 29
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S1376x256x8, .f32⟩
  | .hbm, ⟨2, _⟩ => ⟨S11008, .f32⟩
  | .hbm, ⟨3, _⟩ => ⟨S4096x1376, .i32⟩
  | .hbm, ⟨4, _⟩ => ⟨S1376, .i32⟩
  | .hbm, ⟨5, _⟩ => ⟨S_, .i32⟩
  | .hbm, ⟨6, _⟩ => ⟨S1376, .i32⟩
  | .hbm, ⟨7, _⟩ => ⟨S1376, .i1⟩
  | .hbm, ⟨8, _⟩ => ⟨S_, .i32⟩
  | .hbm, ⟨9, _⟩ => ⟨S1376, .i32⟩
  | .hbm, ⟨10, _⟩ => ⟨S1376, .i32⟩
  | .hbm, ⟨11, _⟩ => ⟨S1376, .i32⟩
  | .hbm, ⟨12, _⟩ => ⟨S_, .i32⟩
  | .hbm, ⟨13, _⟩ => ⟨S4096x1376, .i32⟩
  | .hbm, ⟨14, _⟩ => ⟨S4096x1376, .i1⟩
  | .hbm, ⟨15, _⟩ => ⟨S_, .i32⟩
  | .hbm, ⟨16, _⟩ => ⟨S4096x1376, .i32⟩
  | .hbm, ⟨17, _⟩ => ⟨S4096x1376, .i32⟩
  | .hbm, ⟨18, _⟩ => ⟨S4096x1376, .i32⟩
  | .hbm, ⟨19, _⟩ => ⟨S4096x1376, .i32⟩
  | .hbm, ⟨20, _⟩ => ⟨S4096x1376x1, .i32⟩
  | .hbm, ⟨21, _⟩ => ⟨S4096x1376x1, .i32⟩
  | .hbm, ⟨22, _⟩ => ⟨S4096x1376x2, .i32⟩
  | .hbm, ⟨23, _⟩ => ⟨S4096x1376x8, .f32⟩
  | .hbm, ⟨24, _⟩ => ⟨S4096x11008, .f32⟩
  | .hbm, ⟨25, _⟩ => ⟨S32x11008, .f32⟩
  | .hbm, ⟨26, _⟩ => ⟨S1x11008, .f32⟩
  | .hbm, ⟨27, _⟩ => ⟨S32x11008, .f32⟩
  | .hbm, ⟨28, _⟩ => ⟨S32x11008, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S1376 : S_.BroadcastsInDim S1376 (![] : Fin 0 → Fin S1376.rank)
  bcast_S_S4096x1376 : S_.BroadcastsInDim S4096x1376 (![] : Fin 0 → Fin S4096x1376.rank)
  bcast_S1376_S4096x1376_1 : S1376.BroadcastsInDim S4096x1376 (![1] : Fin 1 → Fin S4096x1376.rank)
  bcast_S4096x1376_S4096x1376x1_0_1 : S4096x1376.BroadcastsInDim S4096x1376x1 (![0, 1] : Fin 2 → Fin S4096x1376x1.rank)
  concatenates_S4096x1376x1_S4096x1376x1_S4096x1376x2_d2 : Shape.Concatenates [S4096x1376x1, S4096x1376x1] S4096x1376x2 2
  shapeCasts_S4096x1376x8_S4096x11008 : S4096x1376x8.ShapeCasts S4096x11008
  bcast_S11008_S1x11008_1 : S11008.BroadcastsInDim S1x11008 (![1] : Fin 1 → Fin S1x11008.rank)
  bcast_S1x11008_S32x11008_0_1 : S1x11008.BroadcastsInDim S32x11008 (![0, 1] : Fin 2 → Fin S32x11008.rank)
  gather_S1376x256x8_S4096x1376x2_S4096x1376x8_2_01_n_n_01_2_118_wf : GatherDims.WF S1376x256x8 S4096x1376x2 S4096x1376x8 [2] [0, 1] [] [0, 1] [] 2 ![1, 1, 8]
  dot_S32x4096_S4096x11008_S32x11008_1_0_0_1_n_n_wf : DotDims.WF S32x4096 S4096x11008 S32x11008 [1] [0] [0] [1] [] []

variable [Facts₀]

def gather_S1376x256x8_S4096x1376x2_S4096x1376x8_2_01_n_n_01_2_118 : GatherDims S1376x256x8 S4096x1376x2 S4096x1376x8 where
  offsetDims := [2]
  collapsedSliceDims := [0, 1]
  operandBatchingDims := []
  startIndicesBatchingDims := []
  startIndexMap := [0, 1]
  indexVectorDim := 2
  sliceSizes := ![1, 1, 8]
  wf := gather_S1376x256x8_S4096x1376x2_S4096x1376x8_2_01_n_n_01_2_118_wf
def dot_S32x4096_S4096x11008_S32x11008_1_0_0_1_n_n : DotDims S32x4096 S4096x11008 S32x11008 where
  lhsContracting := [1]
  rhsContracting := [0]
  lhsNonContracting := [0]
  rhsNonContracting := [1]
  lhsBatch := []
  rhsBatch := []
  wf := dot_S32x4096_S4096x11008_S32x11008_1_0_0_1_n_n_wf

class Facts : Prop extends Facts₀ where

variable [Facts]
-- ==== Proof.Spec.lean ====
/-
  The mathematics of this certificate, stated free of both programs.

  A product-quantised weight matrix: the output axis of length 11008 is cut into 1376 subspaces of 8 lanes, each
  subspace `s` owns a codebook `vectors[s, ·, ·]` of 256 codewords of 8 lanes, and row `i` of the weight takes, in
  subspace `s`, the codeword numbered `indexes[i, s]`:
      weight[i, 8·s + d] = vectors[s, indexes[i, s], d].
  The result is the affine map  out[p, q] = Σ_i x[p, i] · weight[i, q] + bias[q]  (`G` below).

  One program gathers the codewords and contracts once over `i`. The other never gathers: per subspace it forms the
  one-hot matrix  e[k, i] = (k = indexes[i, s])  of the codes, contracts it with `x` over `i`, and contracts the
  result with the codebook over the 256 codes `k`:
      Σ_k vectors[s, k, d] · ( Σ_i e[k, i] · x[p, i] ).
  The two agree because, for each `i`, exactly one `k` has `e[k, i] = 1` — PROVIDED the index is a code, `0 ≤ index < 256`
  (an index outside that range selects no `k` at all) — and because a product distributes over a sum, which on the
  extended reals needs every factor to be a real number (`onehot_contract`).
-/
import Idealize.ShloMosaic.PureOps.Ideal.Laws
import Idealize.ShloMosaic.Lib.ValueIdx

noncomputable section

namespace Cert.Spec

open Idealize.ShloMosaic Idealize.ShloMosaic.ValueIdx

/-! ## Shapes of the four inputs and of the result -/

abbrev SX : Shape := ⟨2, ![32, 4096]⟩
abbrev SV : Shape := ⟨3, ![1376, 256, 8]⟩
abbrev SB : Shape := ⟨1, ![11008]⟩
abbrev SI : Shape := ⟨2, ![4096, 1376]⟩
abbrev SO : Shape := ⟨2, ![32, 11008]⟩

/-! ## What the precondition says -/

/-- Every entry of the array is a real number (neither infinity). -/
def AllReal {S : Shape} (x : S.Idx → EReal) : Prop := ∀ i, ∃ r : ℝ, x i = (r : EReal)

/-- Every index word is a code of the 256-entry codebooks: read unsigned it is below 256 (so read signed it is the same
    number, and non-negative). -/
def InRange (idx : IVec SI 32) : Prop := ∀ j, (idx j).toNat < 256

/-! ## The result as one function of the inputs -/

/-- The code an index word names. Total: on a word in range it is the word's own value. -/
def code (w : BitVec 32) : Fin 256 := ⟨w.toNat % 256, Nat.mod_lt _ (by decide)⟩

theorem code_val_of_lt {w : BitVec 32} (h : w.toNat < 256) : (code w).val = w.toNat := Nat.mod_eq_of_lt h

/-- The subspace an output column lies in, and its lane there: column `q = 8·s + d`. -/
def sub (q : Fin 11008) : Fin 1376 := ⟨q.val / 8, by omega⟩
def lane (q : Fin 11008) : Fin 8 := ⟨q.val % 8, Nat.mod_lt _ (by decide)⟩

/-- `out[p, q] = Σ_i x[p, i] · vectors[s, indexes[i, s], d] + bias[q]`, with `q = 8·s + d`. -/
def G (x : SX.Idx → EReal) (v : SV.Idx → EReal) (b : SB.Idx → EReal) (idx : IVec SI 32) : SO.Idx → EReal := fun j =>
  (∑ i : Fin 4096, x (ix2 (j 0) i) * v (ix3 (sub (j 1)) (code (idx (ix2 i (sub (j 1))))) (lane (j 1)))) + b (ix1 (j 1))

/-! ## The law that joins the two arrangements -/

/-- A finite sum of real numbers taken in the extended reals is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Over the reals: contracting a codebook column `v` against the one-hot-selected sums of `x` is the sum of `x`
    against the selected codewords. For each `i` only `k = c i` survives. -/
theorem onehot_contract_real {n K : ℕ} (x : Fin n → ℝ) (v : Fin K → ℝ) (c : Fin n → Fin K) :
    (∑ k : Fin K, v k * ∑ i : Fin n, (if k = c i then (1 : ℝ) else 0) * x i) = ∑ i : Fin n, x i * v (c i) := by
  simp_rw [Finset.mul_sum]
  rw [Finset.sum_comm]
  refine Finset.sum_congr rfl fun i _ => ?_
  rw [Finset.sum_eq_single (c i)]
  · rw [if_pos rfl]; ring
  · intro k _ hk; rw [if_neg hk]; ring
  · intro h; exact absurd (Finset.mem_univ _) h

/-- The same on the extended reals, every factor being a real number. -/
theorem onehot_contract {n K : ℕ} (x : Fin n → ℝ) (v : Fin K → ℝ) (c : Fin n → Fin K) :
    (∑ k : Fin K, (v k : EReal) * ∑ i : Fin n, (((if k = c i then (1 : ℝ) else 0) : ℝ) : EReal) * (x i : EReal))
      = ∑ i : Fin n, (x i : EReal) * (v (c i) : EReal) := by
  simp_rw [← EReal.coe_mul, coe_sum, ← EReal.coe_mul, coe_sum]
  exact congrArg _ (onehot_contract_real x v c)

end Cert.Spec

end
-- ==== Proof.PreFacts.lean ====
/-
  What the precondition says of the four inputs: every entry of `x`, `vectors` and `bias` is a real number, and every
  index word is a code, `0 ≤ index < 256`.
-/
import proofs.«425155_j9552007266387_2_alg».proof.Pre_finite_inputs
import proofs.«425155_j9552007266387_2_alg».proof.Proof.Gen.Pre_finite_inputs
import proofs.«425155_j9552007266387_2_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.Spec

/-- The scalar shape has exactly one index. -/
instance : Subsingleton Cert.Pre_finite_inputs.S_.Idx := ⟨fun a b => funext fun d => d.elim0⟩

/-- The pattern `0x7F800000` read as a 32-bit float is `+∞`. -/
theorem inf_bits : Ideal.ofBits .f32 0x7F800000#32 = (⊤ : EReal) := by simp [Ideal.ofBits, Ideal.ieee]

/-- An extended real whose absolute value `max a (-a)` lies strictly below `+∞` is a real number: at either
    infinity the absolute value is `+∞` itself. -/
theorem real_of_abs_lt_top (a : EReal) (h : max a (-a) < ⊤) : ∃ r : ℝ, a = (r : EReal) := by
  induction a using EReal.rec with
  | bot => simp at h
  | coe r => exact ⟨r, rfl⟩
  | top => simp at h

/-- The element test `|a| < +∞` of the predicate, read back: `a` is a real number. -/
theorem real_of_test (a : EReal) (h : Ideal.cmp .olt (max a (-a)) (Ideal.ofBits .f32 0x7F800000#32) = 1#1) :
    ∃ r : ℝ, a = (r : EReal) := by
  rw [inf_bits] at h
  refine real_of_abs_lt_top a ?_
  simpa [Ideal.cmp, StableHlo.Predicate.ofBool_eq_one_iff] using h

/-- A 32-bit word that is, read signed, at least 0 and below 256 is, read unsigned, below 256: being non-negative its
    sign bit is clear, so both readings are the same number. -/
theorem toNat_lt_of_signed (w : BitVec 32) (h0 : IntOp.cmpi .sge w 0#32 = 1#1) (h1 : IntOp.cmpi .slt w 256#32 = 1#1) :
    w.toNat < 256 := by
  have hlt : w.toNat < 2 ^ 31 := by
    have e0 : (0#32 : BitVec 32).toInt = 0 := by decide
    have hw := BitVec.toInt_eq_toNat_cond w
    simp only [IntOp.cmpi, StableHlo.Predicate.ofBool_eq_one_iff, BitVec.sle, e0, decide_eq_true_eq] at h0
    split at hw <;> omega
  have h := (StableHlo.Predicate.slt_iff_toNat hlt (by decide)).1 h1
  simpa using h

theorem of_pre (x : FVec Ideal SX .f32) (v : FVec Ideal SV .f32) (b : FVec Ideal SB .f32) (idx : IVec SI 32)
    (h : Cert.Pre_finite_inputs.fn (F := Ideal) x v b idx = fun _ => 1#1) :
    AllReal x ∧ AllReal v ∧ AllReal b ∧ InRange idx := by
  have h0 := congrFun h ValueIdx.ix0
  dsimp only [Cert.Pre_finite_inputs.fn, Cert.Pre_finite_inputs.fn_part1, andi] at h0
  obtain ⟨h0, hlt⟩ := IntOp.andi_eq_one.1 h0
  obtain ⟨h0, hge⟩ := IntOp.andi_eq_one.1 h0
  obtain ⟨h0, hb⟩ := IntOp.andi_eq_one.1 h0
  obtain ⟨hx, hv⟩ := IntOp.andi_eq_one.1 h0
  refine ⟨fun i => ?_, fun i => ?_, fun i => ?_, fun j => ?_⟩
  · exact real_of_test (x i) (Host.reduce_andi_all _ _ _ _ _ hx i)
  · exact real_of_test (v i) (Host.reduce_andi_all _ _ _ _ _ hv i)
  · exact real_of_test (b i) (Host.reduce_andi_all _ _ _ _ _ hb i)
  · exact toNat_lt_of_signed (idx j) (Host.reduce_andi_all _ _ _ _ _ hge j) (Host.reduce_andi_all _ _ _ _ _ hlt j)

end Cert.PreFacts

end
-- ==== Proof.RefValue.lean ====
/-
  The reference's result, read index by index, is the specification `G`: with every index a code, the wrap of negative
  indices and the clamp of the gather both leave the index alone, so the gathered weight is
  `vectors[s, indexes[i, s], d]` at column `8·s + d`, and the contraction over `i` plus the bias is `G`.
-/
import proofs.«425155_j9552007266387_2_alg».proof.Proof.Gen.ReferenceIdeal.Read
import proofs.«425155_j9552007266387_2_alg».proof.Proof.Spec
import Idealize.ShloMosaic.Lib.StableHlo.Predicate

noncomputable section

namespace Cert.RefValue

open Idealize.ShloMosaic Idealize.ShloMosaic.ValueIdx Cert.Spec
open Cert.ReferenceIdeal Cert.ReferenceIdeal.Gen Cert.ReferenceIdeal.Read
open Idealize.ShloMosaic.StableHlo.Predicate (slt_iff_toNat toInt_eq_toNat_of_lt)

/-! ## Words: a small non-negative word is not below zero, so the wrap of negative indices leaves it alone -/

/-- The select that adds the axis length to a negative index is the identity on a word below `2 ^ 31`. -/
theorem wrap_small (w n : BitVec 32) (hw : w.toNat < 2 ^ 31) :
    Scalar.select (IntOp.cmpi .slt w 0#32) (IntOp.addi w n) w = w := by
  have h0 : IntOp.cmpi .slt w 0#32 = 0#1 :=
    eq_zero_of_ne_one fun h => absurd ((slt_iff_toNat hw (by decide)).1 h) (Nat.not_lt_zero _)
  rw [h0, select_zero]

/-- The subspace numbers `arange(1376)`, after their own wrap. -/
theorem dims_read (i : S1376.Idx) : val_main_v5 (F := Ideal) i = BitVec.ofNat 32 (i 0).val := by
  rw [val_main_v5_apply, val_main_v2_apply, val_main_v4_apply, val_main_v0_apply, val_main_v1_apply, val_main_v3_apply,
    val_main_c_apply, val_main_c_0_apply]
  refine wrap_small _ _ ?_
  have : (i 0).val < 1376 := (i 0).isLt
  rw [BitVec.toNat_ofNat]
  omega

/-- The index array after its wrap: a code is left alone. -/
theorem codes_read (idx : IVec SI 32) (hi : InRange idx) (i : S4096x1376.Idx) : val_main_v10 (F := Ideal) idx i = idx i := by
  rw [val_main_v10_apply, val_main_v7_apply, val_main_v9_apply, val_main_v6_apply, val_main_v8_apply,
    val_main_c_1_apply, val_main_c_2_apply]
  refine wrap_small _ _ ?_
  have := hi i
  omega

/-! ## The start-index pairs `[subspace, index]` -/

/-- Component 0 of the start index at `[i, s]` is the subspace number `s`. -/
theorem pair_read0 (idx : IVec SI 32) (i : Fin 4096) (s : Fin 1376) :
    val_main_v14 (F := Ideal) idx (ix3 i s (0 : Fin 2)) = BitVec.ofNat 32 s.val := by
  unfold val_main_v14
  refine (concatenate_pair_apply_left (t := S4096x1376x2) (s₁ := S4096x1376x1) (s₂ := S4096x1376x1) (2 : Fin 3) _ _ _
    (ix3 i s (0 : Fin 2)) rfl (ix3 i s (0 : Fin 1))
    (fun b => by match b with | ⟨0, _⟩ => rfl | ⟨1, _⟩ => rfl | ⟨2, _⟩ => rfl)).trans ?_
  rw [val_main_v12_apply, val_main_v11_apply, dims_read]

/-- Component 1 of the start index at `[i, s]` is the index word `indexes[i, s]`, when it is a code. -/
theorem pair_read1 (idx : IVec SI 32) (hi : InRange idx) (i : Fin 4096) (s : Fin 1376) :
    val_main_v14 (F := Ideal) idx (ix3 i s (1 : Fin 2)) = idx (ix2 i s) := by
  unfold val_main_v14
  refine (concatenate_pair_apply_right (t := S4096x1376x2) (s₁ := S4096x1376x1) (s₂ := S4096x1376x1) (2 : Fin 3) _ _ _
    (ix3 i s (1 : Fin 2)) rfl rfl (ix3 i s (0 : Fin 1))
    (fun b hb => by
      match b with
      | ⟨0, _⟩ => rfl
      | ⟨1, _⟩ => rfl
      | ⟨2, _⟩ => exact absurd rfl hb)
    rfl).trans ?_
  rw [val_main_v13_apply, codes_read idx hi]
  exact congrArg idx (funext fun a => Fin.ext (by match a with | ⟨0, _⟩ => rfl | ⟨1, _⟩ => rfl))

/-! ## The gather, read at an index -/

/-- The gather's dimension numbers: operand `[1376, 256, 8]`, start indices `[4096, 1376, 2]`, result `[4096, 1376, 8]`. -/
abbrev gd : GatherDims S1376x256x8 S4096x1376x2 S4096x1376x8 := gather_S1376x256x8_S4096x1376x2_S4096x1376x8_2_01_n_n_01_2_118

/-- Where result index `[i, s, d]` reads component `c` of its start index: at `[i, s, c]`. -/
theorem siIdx_read (i : Fin 4096) (s : Fin 1376) (d : Fin 8) (c : Fin gd.startIndexMap.length) :
    gd.siIdx (ix3 i s d) c = ix3 i s (⟨c.val, c.isLt⟩ : Fin 2) := by
  funext b; refine Fin.ext ?_
  match b with
  | ⟨0, _⟩ => rfl
  | ⟨1, _⟩ => rfl
  | ⟨2, _⟩ => rfl

/-- The two components of the start index at `[i, s]`, read signed and clamped, are the subspace number and the code. -/
theorem start0 (idx : IVec SI 32) (i : Fin 4096) (s : Fin 1376) (d : Fin 8) :
    gd.start (ix3 i s d) (val_main_v14 (F := Ideal) idx) (0 : Fin 3) = s.val := by
  unfold GatherDims.start
  rw [dif_pos (show (0 : Fin 3) ∈ gd.startIndexMap by decide), siIdx_read]
  have e : val_main_v14 (F := Ideal) idx (ix3 i s (⟨List.idxOf (0 : Fin 3) gd.startIndexMap, by decide⟩ : Fin 2))
      = BitVec.ofNat 32 s.val := pair_read0 idx i s
  rw [e]
  have hs : s.val < 1376 := s.isLt
  have hn : (BitVec.ofNat 32 s.val).toNat = s.val := by rw [BitVec.toNat_ofNat]; omega
  rw [toInt_eq_toNat_of_lt (by omega), hn]
  show min (Int.toNat (s.val : Int)) (1376 - 1) = s.val
  omega

theorem start1 (idx : IVec SI 32) (hi : InRange idx) (i : Fin 4096) (s : Fin 1376) (d : Fin 8) :
    gd.start (ix3 i s d) (val_main_v14 (F := Ideal) idx) (1 : Fin 3) = (code (idx (ix2 i s))).val := by
  unfold GatherDims.start
  rw [dif_pos (show (1 : Fin 3) ∈ gd.startIndexMap by decide), siIdx_read]
  have e : val_main_v14 (F := Ideal) idx (ix3 i s (⟨List.idxOf (1 : Fin 3) gd.startIndexMap, by decide⟩ : Fin 2))
      = idx (ix2 i s) := pair_read1 idx hi i s
  rw [e]
  have hc : (idx (ix2 i s)).toNat < 256 := hi _
  rw [toInt_eq_toNat_of_lt (by omega), code_val_of_lt hc]
  show min (Int.toNat ((idx (ix2 i s)).toNat : Int)) (256 - 1) = _
  omega

theorem start2 (idx : IVec SI 32) (i : Fin 4096) (s : Fin 1376) (d : Fin 8) :
    gd.start (ix3 i s d) (val_main_v14 (F := Ideal) idx) (2 : Fin 3) = 0 := by
  unfold GatherDims.start
  rw [dif_neg (show ¬ (2 : Fin 3) ∈ gd.startIndexMap by decide)]

/-- The operand index of result index `[i, s, d]`, axis by axis: `[s, indexes[i, s], d]`. The first two operand axes are
    collapsed (no offset), the third is the one offset axis and is not start-indexed. -/
theorem operand0 (idx : IVec SI 32) (i : Fin 4096) (s : Fin 1376) (d : Fin 8) :
    (gd.operandIdx (ix3 i s d) (val_main_v14 (F := Ideal) idx) (0 : Fin 3)).val = s.val := by
  show gd.start (ix3 i s d) (val_main_v14 (F := Ideal) idx) (0 : Fin 3) + gd.batchCoord (ix3 i s d) (0 : Fin 3)
    + gd.offCoord (ix3 i s d) (0 : Fin 3) = _
  rw [start0, GatherDims.batchCoord_eq_zero _ _ _ List.not_mem_nil,
    GatherDims.offCoord_eq_zero _ _ _ (show (0 : Fin 3) ∉ gd.sKept by decide), Nat.add_zero]

theorem operand1 (idx : IVec SI 32) (hi : InRange idx) (i : Fin 4096) (s : Fin 1376) (d : Fin 8) :
    (gd.operandIdx (ix3 i s d) (val_main_v14 (F := Ideal) idx) (1 : Fin 3)).val = (code (idx (ix2 i s))).val := by
  show gd.start (ix3 i s d) (val_main_v14 (F := Ideal) idx) (1 : Fin 3) + gd.batchCoord (ix3 i s d) (1 : Fin 3)
    + gd.offCoord (ix3 i s d) (1 : Fin 3) = _
  rw [start1 idx hi, GatherDims.batchCoord_eq_zero _ _ _ List.not_mem_nil,
    GatherDims.offCoord_eq_zero _ _ _ (show (1 : Fin 3) ∉ gd.sKept by decide), Nat.add_zero]

theorem operand2 (idx : IVec SI 32) (i : Fin 4096) (s : Fin 1376) (d : Fin 8) :
    (gd.operandIdx (ix3 i s d) (val_main_v14 (F := Ideal) idx) (2 : Fin 3)).val = d.val := by
  show gd.start (ix3 i s d) (val_main_v14 (F := Ideal) idx) (2 : Fin 3) + gd.batchCoord (ix3 i s d) (2 : Fin 3)
    + gd.offCoord (ix3 i s d) (2 : Fin 3) = _
  rw [start2, GatherDims.batchCoord_eq_zero _ _ _ List.not_mem_nil, Nat.zero_add]
  rfl

/-- THE GATHER at `[i, s, d]`: the codeword `vectors[s, indexes[i, s], d]`. -/
theorem gather_read (v : FVec Ideal SV .f32) (idx : IVec SI 32) (hi : InRange idx) (i : Fin 4096) (s : Fin 1376) (d : Fin 8) :
    val_main_v15 (F := Ideal) v idx (ix3 i s d) = v (ix3 s (code (idx (ix2 i s))) d) := by
  unfold val_main_v15 Host.gather
  refine congrArg v (funext fun a => Fin.ext ?_)
  match a with
  | ⟨0, _⟩ => exact operand0 idx i s d
  | ⟨1, _⟩ => exact operand1 idx hi i s d
  | ⟨2, _⟩ => exact operand2 idx i s d

/-! ## The reference's result is `G` -/

/-- Column `q` of the reshaped weight's row `k` reads the gathered array at `[k, q / 8, q % 8]`. -/
theorem reshape_idx (p : Fin 32) (q : Fin 11008) (k : Fin 4096) :
    idx_main_v16 (ridx_main_v17 (ix2 p q) k) = ix3 k (sub q) (lane q) := by
  have hk : k.val < 4096 := k.isLt
  have hq : q.val < 11008 := q.isLt
  funext a; refine Fin.ext ?_
  match a with
  | ⟨0, _⟩ => show (k.val * 11008 + q.val) / 11008 = k.val; omega
  | ⟨1, _⟩ => show (k.val * 11008 + q.val) / 8 % 1376 = q.val / 8; omega
  | ⟨2, _⟩ => show (k.val * 11008 + q.val) % 8 = q.val % 8; omega

theorem ref_eq (x : FVec Ideal SX .f32) (v : FVec Ideal SV .f32) (b : FVec Ideal SB .f32) (idx : IVec SI 32)
    (hi : InRange idx) :
    Cert.ReferenceIdeal.Read.val_main_v20 (F := Ideal) x v b idx = G x v b idx := by
  funext j
  obtain ⟨p, q, rfl⟩ : ∃ (p : Fin 32) (q : Fin 11008), j = ix2 p q := ⟨j 0, j 1, eq_ix2 j⟩
  rw [val_main_v20_apply, val_main_v17_apply, val_main_v19_apply, val_main_v18_apply, Ideal.addf_def]
  unfold G
  refine congrArg₂ (· + ·) (Finset.sum_congr rfl fun k _ => ?_) ?_
  · rw [val_main_v16_apply, reshape_idx, gather_read v idx hi]
    exact congrArg (fun t => x t * _)
      (funext fun a => Fin.ext (by match a with | ⟨0, _⟩ => rfl | ⟨1, _⟩ => rfl))
  · exact congrArg b (funext fun a => Fin.ext (by match a with | ⟨0, _⟩ => rfl))

end Cert.RefValue

end
-- ==== Proof.Payload.lean ====
/-
  One trip's stored value, read at lane `d` and batch row `p`: the codebook slab contracted over the 256 codes with
  the one-hot-selected sums of `x`, plus the bias; with real entries and indices that are codes this is the sum of
  `x[p, i]` against the selected codewords (the law `Cert.Spec.onehot_contract`).
-/
import proofs.«425155_j9552007266387_2_alg».proof.Proof.Gen.KernelIdeal.Skeleton
import proofs.«425155_j9552007266387_2_alg».proof.Proof.Spec
import Idealize.ShloMosaic.Lib.ValueLayout
import Idealize.ShloMosaic.Lib.StableHlo.Predicate

noncomputable section

namespace Cert.Payload

open Idealize.ShloMosaic Idealize.ShloMosaic.ValueIdx Cert.Spec Cert.KernelIdeal Cert.KernelIdeal.Gen

/-! ## The first product: the one-hot rows against the rows of `x`, over the 4096 columns -/

theorem lhs_sel_0 (i : S256x32.Idx) (q : dot_S256x4096_S32x4096_S256x32_1_1_0_0_n_n.contr.Idx) :
    (dot_S256x4096_S32x4096_S256x32_1_1_0_0_n_n.lhsIdx i q 0).val = (i 0).val := by
  unfold DotDims.lhsIdx
  rw [dif_neg (show ¬(0 : Fin S256x4096.rank) ∈ dot_S256x4096_S32x4096_S256x32_1_1_0_0_n_n.lhsBatch by decide), dif_pos (show (0 : Fin S256x4096.rank) ∈ dot_S256x4096_S32x4096_S256x32_1_1_0_0_n_n.lhsNonContracting by decide)]
  rfl
theorem lhs_sel_1 (i : S256x32.Idx) (q : dot_S256x4096_S32x4096_S256x32_1_1_0_0_n_n.contr.Idx) :
    (dot_S256x4096_S32x4096_S256x32_1_1_0_0_n_n.lhsIdx i q 1).val = (q ⟨0, by decide⟩).val :=
  dot_S256x4096_S32x4096_S256x32_1_1_0_0_n_n.lhsIdx_val_of_single rfl i q
theorem rhs_sel_0 (i : S256x32.Idx) (q : dot_S256x4096_S32x4096_S256x32_1_1_0_0_n_n.contr.Idx) :
    (dot_S256x4096_S32x4096_S256x32_1_1_0_0_n_n.rhsIdx i q 0).val = (i 1).val := by
  unfold DotDims.rhsIdx
  rw [dif_neg (show ¬(0 : Fin S32x4096.rank) ∈ dot_S256x4096_S32x4096_S256x32_1_1_0_0_n_n.rhsBatch by decide), dif_pos (show (0 : Fin S32x4096.rank) ∈ dot_S256x4096_S32x4096_S256x32_1_1_0_0_n_n.rhsNonContracting by decide)]
  rfl
theorem rhs_sel_1 (i : S256x32.Idx) (q : dot_S256x4096_S32x4096_S256x32_1_1_0_0_n_n.contr.Idx) :
    (dot_S256x4096_S32x4096_S256x32_1_1_0_0_n_n.rhsIdx i q 1).val = (q ⟨0, by decide⟩).val :=
  dot_S256x4096_S32x4096_S256x32_1_1_0_0_n_n.rhsIdx_val_of_single rfl i q

/-- Entry `(k, p)` of the first product is the sum over the columns `i` of `a[k, i] · b[p, i]`. -/
theorem sel_apply (a : FVec Ideal S256x4096 .bf16) (b : FVec Ideal S32x4096 .bf16) (k : Fin 256) (p : Fin 32) :
    matmul dot_S256x4096_S32x4096_S256x32_1_1_0_0_n_n none a b (constant (F := Ideal) S256x32 .f32 0x00000000#32) (ix2 k p)
      = ∑ i : Fin 4096, a (ix2 k i) * b (ix2 p i) := by
  simp only [matmul]
  rw [Ideal.matmul_constant_zero_apply, ← Equiv.sum_comp (ValueIdx.contrEquiv1 dot_S256x4096_S32x4096_S256x32_1_1_0_0_n_n 4096 rfl rfl).symm]
  refine Finset.sum_congr rfl fun i _ => ?_
  have hk := ValueIdx.contrEquiv1_symm_val dot_S256x4096_S32x4096_S256x32_1_1_0_0_n_n 4096 rfl rfl i
  have el : dot_S256x4096_S32x4096_S256x32_1_1_0_0_n_n.lhsIdx (ix2 k p) ((ValueIdx.contrEquiv1 dot_S256x4096_S32x4096_S256x32_1_1_0_0_n_n 4096 rfl rfl).symm i) = ix2 k i := funext fun ax => Fin.ext (by
    match ax with
    | ⟨0, _⟩ => exact lhs_sel_0 _ _
    | ⟨1, _⟩ => exact (lhs_sel_1 _ _).trans hk)
  have er : dot_S256x4096_S32x4096_S256x32_1_1_0_0_n_n.rhsIdx (ix2 k p) ((ValueIdx.contrEquiv1 dot_S256x4096_S32x4096_S256x32_1_1_0_0_n_n 4096 rfl rfl).symm i) = ix2 p i := funext fun ax => Fin.ext (by
    match ax with
    | ⟨0, _⟩ => exact rhs_sel_0 _ _
    | ⟨1, _⟩ => exact (rhs_sel_1 _ _).trans hk)
  rw [el, er]

/-! ## The second product: the codebook slab against the selected sums, over the 256 codes -/

theorem lhs_cb_0 (i : S8x32.Idx) (q : dot_S8x256_S256x32_S8x32_1_0_0_1_n_n.contr.Idx) :
    (dot_S8x256_S256x32_S8x32_1_0_0_1_n_n.lhsIdx i q 0).val = (i 0).val := by
  unfold DotDims.lhsIdx
  rw [dif_neg (show ¬(0 : Fin S8x256.rank) ∈ dot_S8x256_S256x32_S8x32_1_0_0_1_n_n.lhsBatch by decide), dif_pos (show (0 : Fin S8x256.rank) ∈ dot_S8x256_S256x32_S8x32_1_0_0_1_n_n.lhsNonContracting by decide)]
  rfl
theorem lhs_cb_1 (i : S8x32.Idx) (q : dot_S8x256_S256x32_S8x32_1_0_0_1_n_n.contr.Idx) :
    (dot_S8x256_S256x32_S8x32_1_0_0_1_n_n.lhsIdx i q 1).val = (q ⟨0, by decide⟩).val :=
  dot_S8x256_S256x32_S8x32_1_0_0_1_n_n.lhsIdx_val_of_single rfl i q
theorem rhs_cb_0 (i : S8x32.Idx) (q : dot_S8x256_S256x32_S8x32_1_0_0_1_n_n.contr.Idx) :
    (dot_S8x256_S256x32_S8x32_1_0_0_1_n_n.rhsIdx i q 0).val = (q ⟨0, by decide⟩).val :=
  dot_S8x256_S256x32_S8x32_1_0_0_1_n_n.rhsIdx_val_of_single rfl i q
theorem rhs_cb_1 (i : S8x32.Idx) (q : dot_S8x256_S256x32_S8x32_1_0_0_1_n_n.contr.Idx) :
    (dot_S8x256_S256x32_S8x32_1_0_0_1_n_n.rhsIdx i q 1).val = (i 1).val := by
  unfold DotDims.rhsIdx
  rw [dif_neg (show ¬(1 : Fin S256x32.rank) ∈ dot_S8x256_S256x32_S8x32_1_0_0_1_n_n.rhsBatch by decide), dif_pos (show (1 : Fin S256x32.rank) ∈ dot_S8x256_S256x32_S8x32_1_0_0_1_n_n.rhsNonContracting by decide)]
  rfl

/-- Entry `(d, p)` of the second product is the sum over the codes `k` of `a[d, k] · b[k, p]`. -/
theorem cb_apply (a : FVec Ideal S8x256 .bf16) (b : FVec Ideal S256x32 .bf16) (d : Fin 8) (p : Fin 32) :
    matmul dot_S8x256_S256x32_S8x32_1_0_0_1_n_n none a b (constant (F := Ideal) S8x32 .f32 0x00000000#32) (ix2 d p)
      = ∑ k : Fin 256, a (ix2 d k) * b (ix2 k p) := by
  simp only [matmul]
  rw [Ideal.matmul_constant_zero_apply, ← Equiv.sum_comp (ValueIdx.contrEquiv1 dot_S8x256_S256x32_S8x32_1_0_0_1_n_n 256 rfl rfl).symm]
  refine Finset.sum_congr rfl fun k _ => ?_
  have hk := ValueIdx.contrEquiv1_symm_val dot_S8x256_S256x32_S8x32_1_0_0_1_n_n 256 rfl rfl k
  have el : dot_S8x256_S256x32_S8x32_1_0_0_1_n_n.lhsIdx (ix2 d p) ((ValueIdx.contrEquiv1 dot_S8x256_S256x32_S8x32_1_0_0_1_n_n 256 rfl rfl).symm k) = ix2 d k := funext fun ax => Fin.ext (by
    match ax with
    | ⟨0, _⟩ => exact lhs_cb_0 _ _
    | ⟨1, _⟩ => exact (lhs_cb_1 _ _).trans hk)
  have er : dot_S8x256_S256x32_S8x32_1_0_0_1_n_n.rhsIdx (ix2 d p) ((ValueIdx.contrEquiv1 dot_S8x256_S256x32_S8x32_1_0_0_1_n_n 256 rfl rfl).symm k) = ix2 k p := funext fun ax => Fin.ext (by
    match ax with
    | ⟨0, _⟩ => exact (rhs_cb_0 _ _).trans hk
    | ⟨1, _⟩ => exact rhs_cb_1 _ _)
  rw [el, er]

/-! ## The layout operations and the one-hot entry -/

/-- A column `[a, 1]` broadcast to `[a, b]` reads, at `(r, c)`, the column's entry at row `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

open Idealize.ShloMosaic.StableHlo.Predicate in
/-- The compare of a code `k` with an index word in range, widened and converted, is the real `1` when the word names
    `k` and the real `0` otherwise. -/
theorem onehot_word (k : Fin 256) (w : BitVec 32) (hw : w.toNat < 256) :
    ((((IntOp.cmpi .eq (BitVec.ofNat 32 k.val) w).setWidth 32).toInt : ℝ) : EReal)
      = (((if k = code w then (1 : ℝ) else 0) : ℝ) : EReal) := by
  have hiff : IntOp.cmpi .eq (BitVec.ofNat 32 k.val) w = 1#1 ↔ k = code w := by
    rw [cmpi_eq_iff]
    constructor
    · intro h
      apply Fin.ext
      rw [code_val_of_lt hw, ← h, BitVec.toNat_ofNat]
      have := k.isLt
      omega
    · intro h
      apply BitVec.eq_of_toNat_eq
      rw [BitVec.toNat_ofNat, h, code_val_of_lt hw]
      omega
  by_cases hk : k = code w
  · rw [if_pos hk, hiff.mpr hk]
    have e : ((1#1 : BitVec 1).setWidth 32).toInt = 1 := by decide
    rw [e, Int.cast_one]
  · rw [if_neg hk, eq_zero_of_ne_one (mt hiff.mp hk)]
    have e : ((0#1 : BitVec 1).setWidth 32).toInt = 0 := by decide
    rw [e, Int.cast_zero]

/-- Entry `(k, i)` of the one-hot matrix built from the index row `w`: `1` if `w[0, i]` names the code `k`, else `0`. -/
theorem onehot_apply (w : IVec S1x4096 32) (hr : ∀ j, (w j).toNat < 256) (k : Fin 256) (i : Fin 4096) :
    (truncf .bf16 (sitofp (F := Ideal) .f32 (extui 32 (cmpi .eq
        (broadcastTo S256x4096 (iota .tc S256x1 32 [0] iota_S256x1_d0_w32) broadcasts_S256x1_S256x4096)
        (broadcastTo S256x4096 (shapeCast S1x4096 (shapeCast S4096 w shapeCasts_S1x4096_S4096) shapeCasts_S4096_S1x4096)
          broadcasts_S1x4096_S256x4096)) natLt_1_32)) bitsLt_bf16_f32 : FVec Ideal S256x4096 .bf16) (ix2 k i)
      = (((if k = code (w (ix2 0 i)) then (1 : ℝ) else 0) : ℝ) : EReal) := by
  rw [truncf_apply, sitofp_apply, extui_apply]
  show ((((IntOp.cmpi .eq
      (broadcastTo S256x4096 (iota .tc S256x1 32 [0] iota_S256x1_d0_w32) broadcasts_S256x1_S256x4096 (ix2 k i))
      (broadcastTo S256x4096 (shapeCast S1x4096 (shapeCast S4096 w shapeCasts_S1x4096_S4096) shapeCasts_S4096_S1x4096)
        broadcasts_S1x4096_S256x4096 (ix2 k i))).setWidth 32).toInt : ℝ) : EReal) = _
  rw [broadcastTo_a1_ab_apply, iota_single_apply, shapeCast_shapeCast, broadcastTo_1b_ab_apply]
  exact onehot_word k _ (hr _)

/-- The bias column broadcast over the 32 batch rows reads the column's entry at lane `d`. -/
theorem bias_apply (c : FVec Ideal S8x1 .f32) (d : Fin 8) (p : Fin 32) :
    broadcastTo S8x32 (shapeCast S8x1 c shapeCasts_S8x1_S8x1) broadcasts_S8x1_S8x32 (ix2 d p) = c (ix2 d 0) := by
  rw [shapeCast_self, broadcastTo_a1_ab_apply]

/-! ## The payload at an index -/

theorem pay_apply (v0 : Vec Ideal S32x4096 .bf16) (v6 : Vec Ideal S1x4096 .i32) (v19 : Vec Ideal S1x8x256 .f32)
    (v26 : Vec Ideal S8x1 .f32) (hx : AllReal v0) (hv : AllReal v19) (hr : ∀ j, (v6 j).toNat < 256)
    (d : Fin 8) (p : Fin 32) :
    k0_pay1 (F := Ideal) v0 v6 v19 v26 (ix2 d p)
      = (∑ i : Fin 4096, v0 (ix2 p i) * v19 (ix3 0 d (code (v6 (ix2 0 i))))) + v26 (ix2 d 0) := by
  choose xr hxr using hx
  choose vr hvr using hv
  unfold k0_pay1
  rw [addf_apply, bias_apply, cb_apply]
  refine congrArg (· + v26 (ix2 d 0)) ?_
  have hR : (∑ i : Fin 4096, v0 (ix2 p i) * v19 (ix3 0 d (code (v6 (ix2 0 i)))))
      = ∑ i : Fin 4096, (xr (ix2 p i) : EReal) * (vr (ix3 0 d (code (v6 (ix2 0 i)))) : EReal) :=
    Finset.sum_congr rfl fun i _ => by rw [hxr, hvr]
  rw [hR]
  refine Eq.trans ?_ (onehot_contract (fun i => xr (ix2 p i)) (fun k => vr (ix3 0 d k)) (fun i => code (v6 (ix2 0 i))))
  refine Finset.sum_congr rfl fun k _ => ?_
  rw [truncf_apply, truncf_apply, shapeCast_1ab_ab_apply, hvr, sel_apply]
  refine congrArg (_ * ·) (Finset.sum_congr rfl fun i _ => ?_)
  rw [onehot_apply _ hr, shapeCast_self, hxr]

end Cert.Payload

end
-- ==== Proof.Block.lean ====
/-
  What one grid point leaves in the output's staging block of shape [256, 32] (rows: 32 subspaces of 8 lanes; columns:
  the batch). The body's loop writes, at trip `k`, the 8 rows `8k … 8k+7`; row `8k + d`, column `p` holds
      Σ_i x[p, i] · slab[k, d, code(indexRow[k, i])] + biasColumn[8k + d]
  (one trip's stored value, read at an index). The 32 pieces tile the block, so the block read back is that one
  function of the block index, `blockG`.
-/
import proofs.«425155_j9552007266387_2_alg».proof.Proof.Gen.KernelIdeal.Frame
import proofs.«425155_j9552007266387_2_alg».proof.Proof.Payload
import proofs.«425155_j9552007266387_2_alg».proof.Proof.Spec
import Idealize.ShloMosaic.Lib.Pipeline.Value

set_option maxRecDepth 16384

noncomputable section

namespace Cert.Block

open Idealize.ShloMosaic Idealize.ShloMosaic.ValueIdx Idealize.SL.Sem Cert.Spec Cert.KernelIdeal Cert.KernelIdeal.Gen

/-- The trip (subspace within the block) a block row belongs to, and its lane there: row `r = 8·k + d`. -/
def rowSub (r : Fin 256) : Fin 32 := ⟨r.val / 8, by omega⟩
def rowLane (r : Fin 256) : Fin 8 := ⟨r.val % 8, Nat.mod_lt _ (by decide)⟩

/-- The block's entry at row `r`, column `p`, from the four staged input blocks. -/
def blk (x0 : Vec Ideal S32x4096 .bf16) (x1 : Vec Ideal S32x4096 .i32) (x2 : Vec Ideal S32x8x256 .f32)
    (x3 : Vec Ideal S256x1 .f32) (r : Fin 256) (p : Fin 32) : EReal :=
  (∑ i : Fin 4096, x0 (ix2 p i) * x2 (ix3 (rowSub r) (rowLane r) (code (x1 (ix2 (rowSub r) i))))) + x3 (ix2 r 0)

/-- The block as one function of its index. -/
def blockG (x0 : Vec Ideal S32x4096 .bf16) (x1 : Vec Ideal S32x4096 .i32) (x2 : Vec Ideal S32x8x256 .f32)
    (x3 : Vec Ideal S256x1 .f32) : S256x32.Idx → EReal := fun y => blk x0 x1 x2 x3 (y 0) (y 1)

theorem hz2 : (![0, 0] : Fin 2 → Nat) = fun _ => 0 := funext fun a => by fin_cases a <;> rfl

/-! ### Where trip `k`'s four rectangles sit: row `k` of the index block, slab `k` of the codebook block, rows `8k …` of
the bias column and of the output block. -/

theorem trips_le (k : Fin k0_t1_loop.trips) : k.val < 32 := Nat.lt_of_lt_of_le k.isLt k0_t1_abs.2.1

theorem idxRow_at (k : Fin k0_t1_loop.trips) (h) (i : Fin 4096) :
    (Rect.unit (s := S32x4096) (k0_off1 k) ![1, 4096] h).idx (ix2 0 i) = ix2 (⟨k.val, trips_le k⟩ : Fin 32) i := by
  funext a; apply Fin.ext
  show k0_off1 k a + 1 * ((ix2 (0 : Fin 1) i) a).val = _
  rw [k0_off1_eq k]
  match a with
  | ⟨0, _⟩ => simp
  | ⟨1, _⟩ => simp

theorem slab_at (k : Fin k0_t1_loop.trips) (h) (d : Fin 8) (cc : Fin 256) :
    (Rect.unit (s := S32x8x256) (k0_off2 k) ![1, 8, 256] h).idx (ix3 0 d cc) = ix3 (⟨k.val, trips_le k⟩ : Fin 32) d cc := by
  funext a; apply Fin.ext
  show k0_off2 k a + 1 * ((ix3 (0 : Fin 1) d cc) a).val = _
  rw [k0_off2_eq k]
  match a with
  | ⟨0, _⟩ => simp
  | ⟨1, _⟩ => simp
  | ⟨2, _⟩ => simp

theorem biasRow_at (k : Fin k0_t1_loop.trips) (h) (d : Fin 8) :
    (Rect.unit (s := S256x1) (k0_off3 k) ![8, 1] h).idx (ix2 d 0)
      = ix2 (⟨8 * k.val + d.val, by have := trips_le k; omega⟩ : Fin 256) (0 : Fin 1) := by
  funext a; apply Fin.ext
  show k0_off3 k a + 1 * ((ix2 d (0 : Fin 1)) a).val = _
  rw [k0_off3_eq k]
  match a with
  | ⟨0, _⟩ => simp
  | ⟨1, _⟩ => simp

theorem outRow_at (k : Fin k0_t1_loop.trips) (h) (d : Fin 8) (q : Fin 32) :
    (Rect.unit (s := S256x32) (k0_off4 k) ![8, 32] h).idx (ix2 d q)
      = ix2 (⟨8 * k.val + d.val, by have := trips_le k; omega⟩ : Fin 256) q := by
  funext a; apply Fin.ext
  show k0_off4 k a + 1 * ((ix2 d q) a).val = _
  rw [k0_off4_eq k]
  match a with
  | ⟨0, _⟩ => simp
  | ⟨1, _⟩ => simp

theorem rowSub_at (k : ℕ) (hk : k < 32) (d : Fin 8) (h) : rowSub ⟨8 * k + d.val, h⟩ = ⟨k, hk⟩ :=
  Fin.ext (by show (8 * k + d.val) / 8 = k; omega)

theorem rowLane_at (k : ℕ) (d : Fin 8) (h) : rowLane ⟨8 * k + d.val, h⟩ = d :=
  Fin.ext (by show (8 * k + d.val) % 8 = d.val; omega)

/-- Trip `k`'s one piece agrees with `blockG` on the rows it writes. -/
theorem trip_piece (𝒱 : Variants) (c : Dev nD) (bd : Option 𝒱.V) (i : grid0.Coords)
    (arg1 : Memref sig .tc .vmem S32x4096 .bf16) (harg1 : arg1.IsWhole) (arg2 : Memref sig .tc .vmem S32x4096 .i32) (harg2 : arg2.IsWhole)
    (arg3 : Memref sig .tc .vmem S32x8x256 .f32) (harg3 : arg3.IsWhole) (arg4 : Memref sig .tc .vmem S256x1 .f32) (harg4 : arg4.IsWhole)
    (arg5 : Memref sig .tc .vmem S256x32 .f32) (harg5 : arg5.IsWhole)
    (x0 : Vec Ideal S32x4096 .bf16) (x1 : Vec Ideal S32x4096 .i32) (x2 : Vec Ideal S32x8x256 .f32) (x3 : Vec Ideal S256x1 .f32)
    (hx0 : AllReal x0) (hx2 : AllReal x2) (hx1 : ∀ j, (x1 j).toNat < 256) (k : Fin k0_t1_loop.trips) :
    ∀ p ∈ tripL_k0_t1 (F := Ideal) 𝒱 c bd i arg1 harg1 arg2 harg2 arg3 harg3 arg4 harg4 arg5 harg5 x0
        (harg2.unread x1) (harg3.unread x2) (harg4.unread x3) k,
      ∀ x : p.1.shape.Idx, p.2 x = blockG x0 x1 x2 x3 (p.1.emb x) := by
  intro p hp x
  unfold tripL_k0_t1 trip_k0_t1 at hp
  dsimp only at hp
  rw [List.mem_singleton] at hp
  subst hp
  obtain ⟨d, q, rfl⟩ : ∃ (d : Fin 8) (q : Fin 32), x = ix2 d q := ⟨x 0, x 1, eq_ix2 x⟩
  dsimp only
  simp only [View.readAt_eq_ld, harg2.read_unread, harg3.read_unread, harg4.read_unread]
  refine (Cert.Payload.pay_apply x0 _ _ _ hx0 (fun j => hx2 _) (fun j => hx1 _) d q).trans ?_
  show _ = blockG x0 x1 x2 x3 ((Rect.unit (s := S256x32) (k0_off4 k) ![8, 32] _).idx (ix2 d q))
  rw [outRow_at k _ d q]
  show _ = blk x0 x1 x2 x3 _ q
  unfold blk View.ld
  simp only [idxRow_at k, slab_at k, rowSub_at k.val (trips_le k) d, rowLane_at k.val d]
  exact congrArg _ (congrArg x3 (biasRow_at k _ d))

/-- Every piece the trips before `n` wrote agrees with `blockG`: by induction on `n`, trip `n`'s piece in front. -/
theorem pb_pieces (𝒱 : Variants) (c : Dev nD) (bd : Option 𝒱.V) (i : grid0.Coords)
    (arg1 : Memref sig .tc .vmem S32x4096 .bf16) (harg1 : arg1.IsWhole) (arg2 : Memref sig .tc .vmem S32x4096 .i32) (harg2 : arg2.IsWhole)
    (arg3 : Memref sig .tc .vmem S32x8x256 .f32) (harg3 : arg3.IsWhole) (arg4 : Memref sig .tc .vmem S256x1 .f32) (harg4 : arg4.IsWhole)
    (arg5 : Memref sig .tc .vmem S256x32 .f32) (harg5 : arg5.IsWhole)
    (x0 : Vec Ideal S32x4096 .bf16) (x1 : Vec Ideal S32x4096 .i32) (x2 : Vec Ideal S32x8x256 .f32) (x3 : Vec Ideal S256x1 .f32)
    (hx0 : AllReal x0) (hx2 : AllReal x2) (hx1 : ∀ j, (x1 j).toNat < 256) :
    ∀ n, n ≤ k0_t1_loop.trips →
      ∀ p ∈ pb_k0_t1 (F := Ideal) 𝒱 c bd i arg1 harg1 arg2 harg2 arg3 harg3 arg4 harg4 arg5 harg5 x0
          (harg2.unread x1) (harg3.unread x2) (harg4.unread x3) n,
        ∀ x : p.1.shape.Idx, p.2 x = blockG x0 x1 x2 x3 (p.1.emb x)
  | 0, _, p, hp => by rw [pb_k0_t1] at hp; exact absurd hp List.not_mem_nil
  | n + 1, hn, p, hp => by
    rw [show n + 1 = (⟨n, hn⟩ : Fin k0_t1_loop.trips).val + 1 from rfl, pb_k0_t1_succ] at hp
    rcases List.mem_append.mp hp with h | h
    · exact trip_piece 𝒱 c bd i arg1 harg1 arg2 harg2 arg3 harg3 arg4 harg4 arg5 harg5 x0 x1 x2 x3 hx0 hx2 hx1 ⟨n, hn⟩ p h
    · exact pb_pieces 𝒱 c bd i arg1 harg1 arg2 harg2 arg3 harg3 arg4 harg4 arg5 harg5 x0 x1 x2 x3 hx0 hx2 hx1 n
        (Nat.le_of_lt hn) p h

/-- THE BLOCK: what the body leaves in the output's staging block is `blockG` of the four staged input blocks — its 32
    pieces cover the block and each agrees with `blockG` where it writes. -/
theorem out_block (c : Dev nD) (i : grid0.Coords)
    (arg1 : Memref sig .tc .vmem S32x4096 .bf16) (harg1 : arg1.IsWhole) (arg2 : Memref sig .tc .vmem S32x4096 .i32) (harg2 : arg2.IsWhole)
    (arg3 : Memref sig .tc .vmem S32x8x256 .f32) (harg3 : arg3.IsWhole) (arg4 : Memref sig .tc .vmem S256x1 .f32) (harg4 : arg4.IsWhole)
    (arg5 : Memref sig .tc .vmem S256x32 .f32) (harg5 : arg5.IsWhole)
    (x0 : Vec Ideal S32x4096 .bf16) (x1 : Vec Ideal S32x4096 .i32) (x2 : Vec Ideal S32x8x256 .f32) (x3 : Vec Ideal S256x1 .f32)
    (hx0 : AllReal x0) (hx2 : AllReal x2) (hx1 : ∀ j, (x1 j).toNat < 256) :
    out0_A_4 (F := Ideal) c i arg1 harg1 arg2 harg2 arg3 harg3 arg4 harg4 arg5 harg5 x0 x1 x2 x3 = blockG x0 x1 x2 x3 := by
  unfold out0_A_4
  rw [View.read_writes_eq_canon _ _ _ (cover0_A_4 c i arg1 harg1 arg2 harg2 arg3 harg3 arg4 harg4 arg5 harg5 x0 x1 x2 x3)]
  funext y
  refine View.canon_apply_of_pieces (blockG x0 x1 x2 x3) _ ?_ y
    (cover0_A_4 c i arg1 harg1 arg2 harg2 arg3 harg3 arg4 harg4 arg5 harg5 x0 x1 x2 x3 y)
  unfold kernelRun0_A
  dsimp only
  simp only [View.readAt_eq_ld, harg1.read_unread, View.ld_unit_zero (S := S32x4096) hz2]
  exact pb_pieces Variants.none c none i arg1 harg1 arg2 harg2 arg3 harg3 arg4 harg4 arg5 harg5 x0 x1 x2 x3 hx0 hx2 hx1 _ le_rfl

end Cert.Block

end
-- ==== Proof.Entry.lean ====
/-
  What the region finds in its four input arrays, and each window's block at a grid point.

  Before the region the host lays the inputs out for the kernel: the index matrix transposed to [1376, 4096] (subspace
  major), each codebook transposed to [8, 256] (lane major), the bias as a column [11008, 1], and `x` unchanged (a change
  of float format is the identity on the extended reals). Grid point `t` stages subspaces `32t … 32t+31`: rows
  `32t + k` of the transposed indices, slabs `32t + k` of the transposed codebooks, rows `256t + r` of the bias
  column, and the whole of `x`.
-/
import proofs.«425155_j9552007266387_2_alg».proof.Proof.Gen.KernelIdeal.Frame
import proofs.«425155_j9552007266387_2_alg».proof.Proof.Spec
import Idealize.ShloMosaic.Lib.StableHlo.Run
import Idealize.ShloMosaic.Lib.ValueLayout
import Idealize.ShloMosaic.Lib.Pipeline.Value

set_option maxRecDepth 16384

noncomputable section

namespace Cert.Entry

open Idealize.ShloMosaic Idealize.ShloMosaic.TcCoe Idealize.ShloMosaic.ValueIdx Idealize.ShloMosaic.StableHlo Idealize.SL.Sem Cert.Spec
open Cert.KernelIdeal Cert.KernelIdeal.Gen

variable (m : (ℓ : Loc nD τ sig) → Buf (Elt Ideal) ℓ)

/-- The four argument arrays on core `c`, at their literal types. -/
abbrev xA (c : Dev nD) : Vec Ideal S32x4096 .f32 := m ((c : Thread nD τ).loc main_arg0)
abbrev vA (c : Dev nD) : Vec Ideal S1376x256x8 .f32 := m ((c : Thread nD τ).loc main_arg1)
abbrev bA (c : Dev nD) : Vec Ideal S11008 .f32 := m ((c : Thread nD τ).loc main_arg2)
abbrev iA (c : Dev nD) : Vec Ideal S4096x1376 .i32 := m ((c : Thread nD τ).loc main_arg3)

theorem V_idxT (c : Dev nD) : (V m c main_v0 : S1376x4096.Idx → BitVec 32)
    = transpose S1376x4096 [1, 0] (iA m c) transposes_S4096x1376_S1376x4096_1_0 := by
  show StableHlo.after hostOps0 (fun b => m (c, b)) (Proc.devRef .tc main_v0) = _
  after_results

theorem V_vecT (c : Dev nD) : (V m c main_v1 : S1376x8x256.Idx → EReal)
    = transpose S1376x8x256 [0, 2, 1] (vA m c) transposes_S1376x256x8_S1376x8x256_0_2_1 := by
  show StableHlo.after hostOps0 (fun b => m (c, b)) (Proc.devRef .tc main_v1) = _
  after_results

theorem V_biasCol (c : Dev nD) : (V m c main_v2 : S11008x1.Idx → EReal)
    = shapeCast S11008x1 (bA m c) shapeCasts_S11008_S11008x1 := by
  show StableHlo.after hostOps0 (fun b => m (c, b)) (Proc.devRef .tc main_v2) = _
  after_results
  rfl

theorem V_xbf (c : Dev nD) : (V m c main_v3 : S32x4096.Idx → EReal) = xA m c := by
  show StableHlo.after hostOps0 (fun b => m (c, b)) (Proc.devRef .tc main_v3) = _
  after_results
  rfl

/-! ### The same, index by index -/

theorem V_idxT_apply (c : Dev nD) (s : Fin 1376) (i : Fin 4096) :
    (V m c main_v0 : S1376x4096.Idx → BitVec 32) (ix2 s i) = iA m c (ix2 i s) := by
  rw [V_idxT]; exact transpose_ix2_apply _ _ s i

theorem V_vecT_apply (c : Dev nD) (s : Fin 1376) (d : Fin 8) (k : Fin 256) :
    (V m c main_v1 : S1376x8x256.Idx → EReal) (ix3 s d k) = vA m c (ix3 s k d) := by
  rw [V_vecT]; exact transpose_ix3_021_apply _ _ s d k

theorem V_biasCol_apply (c : Dev nD) (r : Fin 11008) :
    (V m c main_v2 : S11008x1.Idx → EReal) (ix2 r (0 : Fin 1)) = bA m c (ix1 r) := by
  rw [V_biasCol]
  refine shapeCast_apply _ _ _ _ ?_
  rw [Shape.rowMajor_val_one, Shape.rowMajor_val_two]
  simp

theorem V_xbf_apply (c : Dev nD) (j : S32x4096.Idx) : (V m c main_v3 : S32x4096.Idx → EReal) j = xA m c j := by
  rw [V_xbf]

/-! ### Each window's block at grid point `t` -/

/-- The four windows' block indices, decided once over the grid: window 0 stays at block (0, 0); the others move
    along their first axis with the point. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 43 := Nat.lt_of_lt_of_eq t.isLt N_0

/-- Subspace `32t + k`: the one row `k` of point `t`'s blocks belongs to. -/
def subAt (t : Fin cfg0.N) (k : Fin 32) : Fin 1376 := ⟨32 * t.val + k.val, by have := t_lt t; omega⟩
/-- Output column `256t + r`: the one row `r` of point `t`'s bias and output blocks belongs to. -/
def colAt (t : Fin cfg0.N) (r : Fin 256) : Fin 11008 := ⟨256 * t.val + r.val, by have := t_lt t; omega⟩

/-- Window 0 (the whole of `x`, at every point). -/
theorem blk0_apply (c : Dev nD) (t : Fin cfg0.N) (p : Fin 32) (i : Fin 4096) :
    (iblk m c 0 t : Vec Ideal S32x4096 .bf16) (ix2 p i) = xA m c (ix2 p i) := by
  obtain ⟨e0, e1, -⟩ := idx_facts t
  unfold iblk
  rw [View.read_apply]
  show V m c main_v3 _ = _
  refine Eq.trans (congrArg _ (funext fun a => Fin.ext ?_)) (V_xbf_apply m c (ix2 p i))
  match a with
  | ⟨0, _⟩ => show win0_0.index t (0 : Fin 2) * 32 + 1 * p.val = p.val; rw [e0]; omega
  | ⟨1, _⟩ => show win0_0.index t (1 : Fin 2) * 4096 + 1 * i.val = i.val; rw [e1]; omega

/-- Window 1: row `k` of the block is the indices of subspace `32t + k`. -/
theorem blk1_apply (c : Dev nD) (t : Fin cfg0.N) (k : Fin 32) (i : Fin 4096) :
    (iblk m c 1 t : Vec Ideal S32x4096 .i32) (ix2 k i) = iA m c (ix2 i (subAt t k)) := by
  obtain ⟨-, -, e0, e1, -⟩ := idx_facts t
  unfold iblk
  rw [View.read_apply]
  show V m c main_v0 _ = _
  refine Eq.trans (congrArg _ (funext fun a => Fin.ext ?_)) (V_idxT_apply m c (subAt t k) i)
  match a with
  | ⟨0, _⟩ => show win0_1.index t (0 : Fin 2) * 32 + 1 * k.val = 32 * t.val + k.val; rw [e0]; omega
  | ⟨1, _⟩ => show win0_1.index t (1 : Fin 2) * 4096 + 1 * i.val = i.val; rw [e1]; omega

/-- Window 2: slab `k` of the block is the (lane-major) codebook of subspace `32t + k`. -/
theorem blk2_apply (c : Dev nD) (t : Fin cfg0.N) (k : Fin 32) (d : Fin 8) (cc : Fin 256) :
    (iblk m c 2 t : Vec Ideal S32x8x256 .f32) (ix3 k d cc) = vA m c (ix3 (subAt t k) cc d) := by
  obtain ⟨-, -, -, -, e0, e1, e2, -⟩ := idx_facts t
  unfold iblk
  rw [View.read_apply]
  show V m c main_v1 _ = _
  refine Eq.trans (congrArg _ (funext fun a => Fin.ext ?_)) (V_vecT_apply m c (subAt t k) d cc)
  match a with
  | ⟨0, _⟩ => show win0_2.index t (0 : Fin 3) * 32 + 1 * k.val = 32 * t.val + k.val; rw [e0]; omega
  | ⟨1, _⟩ => show win0_2.index t (1 : Fin 3) * 8 + 1 * d.val = d.val; rw [e1]; omega
  | ⟨2, _⟩ => show win0_2.index t (2 : Fin 3) * 256 + 1 * cc.val = cc.val; rw [e2]; omega

/-- Window 3: row `r` of the block is the bias of output column `256t + r`. -/
theorem blk3_apply (c : Dev nD) (t : Fin cfg0.N) (r : Fin 256) :
    (iblk m c 3 t : Vec Ideal S256x1 .f32) (ix2 r (0 : Fin 1)) = bA m c (ix1 (colAt t r)) := by
  obtain ⟨-, -, -, -, -, -, -, e0, e1, -⟩ := idx_facts t
  unfold iblk
  rw [View.read_apply]
  show V m c main_v2 _ = _
  refine Eq.trans (congrArg _ (funext fun a => Fin.ext ?_)) (V_biasCol_apply m c (colAt t r))
  match a with
  | ⟨0, _⟩ => show win0_3.index t (0 : Fin 2) * 256 + 1 * r.val = 256 * t.val + r.val; rw [e0]; omega
  | ⟨1, _⟩ => show win0_3.index t (1 : Fin 2) * 1 + 1 * (0 : Fin 1).val = (0 : Fin 1).val; rw [e1]; simp

end Cert.Entry

end
-- ==== Proof.Array.lean ====
/-
  From blocks to the array, and from the array to the result.

  Grid point `t` writes back rows `256t … 256t+255` of the [11008, 32] output array; row `256t + r`, column `p` of what
  it writes is the block entry `blockG … (r, p)`, which in terms of the argument arrays is `G` at row `p`, column
  `256t + r` — the array is `G` transposed (`GT`). The 43 blocks tile the array, so it ends holding `GT`, and the one
  host operation after the region transposes it back: the result is `G`.
-/
import proofs.«425155_j9552007266387_2_alg».proof.Proof.Gen.KernelIdeal.Frame
import proofs.«425155_j9552007266387_2_alg».proof.Proof.Block
import proofs.«425155_j9552007266387_2_alg».proof.Proof.Entry
import proofs.«425155_j9552007266387_2_alg».proof.Proof.Spec
import Idealize.ShloMosaic.Lib.StableHlo.Run
import Idealize.ShloMosaic.Lib.ValueLayout
import Idealize.ShloMosaic.Lib.Pipeline.Value

set_option maxRecDepth 16384

noncomputable section

namespace Cert.KArray

open Idealize.ShloMosaic Idealize.ShloMosaic.TcCoe Idealize.ShloMosaic.ValueIdx Idealize.ShloMosaic.StableHlo Idealize.SL.Sem
open Cert.Spec Cert.Block Cert.Entry Cert.KernelIdeal Cert.KernelIdeal.Gen

variable (m : (ℓ : Loc nD τ sig) → Buf (Elt Ideal) ℓ) (ρ : Dev nD → PrngReg)

/-- What the precondition gives on core `c`: `x` and the codebooks hold real numbers, the indices are codes. -/
structure Ok (c : Dev nD) : Prop where
  x : AllReal (xA m c)
  v : AllReal (vA m c)
  i : InRange (iA m c)

/-- The output array of the region, [11008, 32]: `G` transposed. -/
def GT (c : Dev nD) : S11008x32.Idx → EReal := fun j => G (xA m c) (vA m c) (bA m c) (iA m c) (ix2 (j 1) (j 0))

/-- The four staged input blocks at point `t`, at their literal types. -/
abbrev b0 (c : Dev nD) (t : Fin cfg0.N) : Vec Ideal S32x4096 .bf16 := iblk m c 0 t
abbrev b1 (c : Dev nD) (t : Fin cfg0.N) : Vec Ideal S32x4096 .i32 := iblk m c 1 t
abbrev b2 (c : Dev nD) (t : Fin cfg0.N) : Vec Ideal S32x8x256 .f32 := iblk m c 2 t
abbrev b3 (c : Dev nD) (t : Fin cfg0.N) : Vec Ideal S256x1 .f32 := iblk m c 3 t

/-- What the body leaves in the output's staging block at point `t`. -/
theorem outsAt_eq (c : Dev nD) (h : Ok m c) (t : Fin cfg0.N) :
    outsAt0 m c t = blockG (b0 m c t) (b1 m c t) (b2 m c t) (b3 m c t) := by
  unfold outsAt0
  refine out_block c _ _ _ _ _ _ _ _ _ _ _ (b0 m c t) (b1 m c t) (b2 m c t) (b3 m c t) ?_ ?_ ?_
  · intro j
    obtain ⟨p, i, rfl⟩ : ∃ (p : Fin 32) (i : Fin 4096), j = ix2 p i := ⟨j 0, j 1, eq_ix2 j⟩
    rw [show b0 m c t (ix2 p i) = xA m c (ix2 p i) from blk0_apply m c t p i]
    exact h.x _
  · intro j
    obtain ⟨k, d, cc, rfl⟩ : ∃ (k : Fin 32) (d : Fin 8) (cc : Fin 256), j = ix3 k d cc := ⟨j 0, j 1, j 2, eq_ix3 j⟩
    rw [show b2 m c t (ix3 k d cc) = _ from blk2_apply m c t k d cc]
    exact h.v _
  · intro j
    obtain ⟨k, i, rfl⟩ : ∃ (k : Fin 32) (i : Fin 4096), j = ix2 k i := ⟨j 0, j 1, eq_ix2 j⟩
    rw [show b1 m c t (ix2 k i) = _ from blk1_apply m c t k i]
    exact h.i _

/-- Column `256t + r` lies in subspace `32t + r / 8`, at lane `r % 8`. -/
theorem sub_colAt (t : Fin cfg0.N) (r : Fin 256) : sub (colAt t r) = subAt t (rowSub r) :=
  Fin.ext (by show (256 * t.val + r.val) / 8 = 32 * t.val + r.val / 8; omega)
theorem lane_colAt (t : Fin cfg0.N) (r : Fin 256) : lane (colAt t r) = rowLane r :=
  Fin.ext (by show (256 * t.val + r.val) % 8 = r.val % 8; omega)

/-- Point `t`'s block, in terms of the argument arrays, is `GT` on the rows it covers. -/
theorem block_eq (c : Dev nD) (t : Fin cfg0.N) (r : Fin 256) (p : Fin 32) :
    blockG (b0 m c t) (b1 m c t) (b2 m c t) (b3 m c t) (ix2 r p) = GT m c (ix2 (colAt t r) p) := by
  show blk (b0 m c t) (b1 m c t) (b2 m c t) (b3 m c t) r p = G (xA m c) (vA m c) (bA m c) (iA m c) (ix2 p (colAt t r))
  unfold blk G
  simp only [show ∀ p i, b0 m c t (ix2 p i) = xA m c (ix2 p i) from blk0_apply m c t,
    show ∀ k i, b1 m c t (ix2 k i) = iA m c (ix2 i (subAt t k)) from blk1_apply m c t,
    show ∀ k d cc, b2 m c t (ix3 k d cc) = vA m c (ix3 (subAt t k) cc d) from blk2_apply m c t,
    show ∀ r, b3 m c t (ix2 r (0 : Fin 1)) = bA m c (ix1 (colAt t r)) from blk3_apply m c t]
  show _ = (∑ i : Fin 4096, xA m c (ix2 p i) * vA m c (ix3 (sub (colAt t r)) (code (iA m c (ix2 i (sub (colAt t r))))) (lane (colAt t r)))) + bA m c (ix1 (colAt t r))
  rw [sub_colAt, lane_colAt]

/-- WHAT POINT `t` WRITES BACK is block `t` of `GT`. -/
theorem flushed_eq (c : Dev nD) (h : Ok m c) (t : Fin cfg0.N) :
    (dats m 0 c).flushed 4 t = ((cfg0.win 4).blk t).view.read (Elt Ideal) (GT m c) := by
  show (cfg0.win 4).cut (grid0.coords t) ((dats m 0 c).after 4 t) = _
  rw [after0_4, outsAt_eq m c h t]
  funext y
  obtain ⟨r, p, rfl⟩ : ∃ (r : Fin 256) (p : Fin 32), y = ix2 r p := ⟨y 0, y 1, eq_ix2 y⟩
  rw [View.read_apply]
  obtain ⟨-, -, -, -, -, -, -, -, -, e0, e1⟩ := idx_facts t
  refine (block_eq m c t r p).trans (congrArg (GT m c) (funext fun a => Fin.ext ?_))
  match a with
  | ⟨0, _⟩ => show 256 * t.val + r.val = win0_4.index t (0 : Fin 2) * 256 + 1 * r.val; rw [e0]; omega
  | ⟨1, _⟩ => show p.val = win0_4.index t (1 : Fin 2) * 32 + 1 * p.val; rw [e1]; omega

/-- THE ARRAY after the region: every row `i` lies in the block of point `i / 256`, so the array ends holding `GT`. -/
theorem final (c : Dev nD) (h : Ok m c) : (dats m 0 c).arrAt 4 cfg0.N = GT m c :=
  (dats m 0 c).arrAt_eq_of_cover 4 (GT m c) (fun t _ => flushed_eq m c h t) fun i => by
    have hi0 : (i 0).val < 11008 := (i 0).isLt
    have hi1 : (i 1).val < 32 := (i 1).isLt
    have hN : cfg0.N = 43 := N_0
    have ht : (i 0).val / 256 < cfg0.N := by rw [hN]; omega
    obtain ⟨-, -, -, -, -, -, -, -, -, e0, e1⟩ := idx_facts ⟨(i 0).val / 256, ht⟩
    refine ⟨⟨(i 0).val / 256, ht⟩, flush0_4 _, ?_⟩
    show i ∈ ((View.whole main_v4).slice (win0_4.rect ⟨(i 0).val / 256, ht⟩)).set
    rw [View.set_slice_whole, Rect.mem_set_unit]
    intro a
    match a with
    | ⟨0, _⟩ =>
      show win0_4.index ⟨(i 0).val / 256, ht⟩ (0 : Fin 2) * 256 ≤ (i 0).val
        ∧ (i 0).val < win0_4.index ⟨(i 0).val / 256, ht⟩ (0 : Fin 2) * 256 + 256
      rw [e0]; dsimp only; omega
    | ⟨1, _⟩ =>
      show win0_4.index ⟨(i 0).val / 256, ht⟩ (1 : Fin 2) * 32 ≤ (i 1).val
        ∧ (i 1).val < win0_4.index ⟨(i 0).val / 256, ht⟩ (1 : Fin 2) * 32 + 32
      rw [e1]; omega

/-- THE RESULT: the host transposes the region's array back, so `main_v5` ends holding `G` of the arguments. -/
theorem result_eq (c : Dev nD) (h : Ok m c) :
    (Pipeline.afterTail₀ cfgs (dats m) 0 (V0 m) [hostOps1] c main_v5 : S32x11008.Idx → EReal)
      = G (xA m c) (vA m c) (bA m c) (iA m c) := by
  unfold Pipeline.afterTail₀
  show StableHlo.after hostOps1 _ (Proc.devRef .tc main_v5) = _
  after_results
  have e : (Pipeline.withArrays (cfgs 0).spec c (V0 m c) (fun w => (dats m 0 c).arrAt w (cfgs 0).N)
      (Proc.devRef .tc main_v4) : S11008x32.Idx → EReal) = GT m c :=
    (Pipeline.withArrays_arr spec0 launch0.win.arr_inj c _ _ 4).trans (final m c h)
  rw [e]
  funext j
  obtain ⟨p, q, rfl⟩ : ∃ (p : Fin 32) (q : Fin 11008), j = ix2 p q := ⟨j 0, j 1, eq_ix2 j⟩
  exact transpose_ix2_apply _ _ p q

/-- THE RUN of the idealized kernel, read: the result at `G` of the arguments, the arguments unchanged. -/
theorem run (hok : ∀ c, Ok m c) :
    θ_run defs (onTc (τ := τ) (main (F := Ideal))) ⟨m, fun _ => 0, ρ⟩ fun r => ∀ c : Dev nD,
      r.2.mem ((c : Thread nD τ).loc main_v5) = G (xA m c) (vA m c) (bA m c) (iA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v5 (Pipeline.mem_restRefs_of main_v5 (by decide) (by decide))).trans (result_eq m c (hok c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KArray

end
-- ==== Proof.lean ====
/-
  A product-quantised linear layer, computed two ways, is one function on the extended reals.

  The weight matrix [4096, 11008] is never stored: its output axis is cut into 1376 subspaces of 8 lanes, each subspace
  `s` has a codebook `vectors[s]` of 256 codewords, and `weight[i, 8s + d] = vectors[s, indexes[i, s], d]`. Both programs
  compute  out[p, q] = Σ_i x[p, i] · weight[i, q] + bias[q]  (`Cert.Spec.G`).

  * The reference gathers the codewords into the weight and contracts once over `i` (`Cert.RefValue.ref_eq`).
  * The kernel never gathers. For each subspace it compares the 256 codes against the subspace's row of indices, which
    gives the one-hot matrix `e[k, i] = (k = indexes[i, s])`; it contracts `e` with `x` over `i`, then the codebook with
    that over the 256 codes `k`, and adds the bias. Each loop trip writes 8 rows of a [256, 32] block
    (`Cert.Payload.pay_apply`, `Cert.Block.out_block`), each grid point one block of the transposed result, 43 blocks tile
    it, and the host transposes it back (`Cert.KArray.run`).

  The two agree because, for every `i`, exactly one code `k` equals the index — which is where the precondition's
  `0 ≤ indexes < 256` is used: an index outside that range matches no code, and the kernel's term for that `i` would
  vanish while the reference's gather still reads a codeword — and because a product distributes over a finite sum,
  which on the extended reals needs every factor finite: the precondition's finiteness of `x` and `vectors`
  (`Cert.Spec.onehot_contract`, `Cert.PreFacts.of_pre`). The bias is added last on both sides and needs nothing.

  The three frames: the two kernel programs' are the generated frame certificates; the reference has no kernel, and its
  frame is its generated run with the result dropped. The idealization rewrote nothing, so `preserves` is `True`.
-/
import proofs.«425155_j9552007266387_2_alg».proof.Defs
import proofs.«425155_j9552007266387_2_alg».proof.Proof.Gen.Kernel
import proofs.«425155_j9552007266387_2_alg».proof.Proof.Gen.Kernel.Skeleton
import proofs.«425155_j9552007266387_2_alg».proof.Proof.Gen.Kernel.Loops
import proofs.«425155_j9552007266387_2_alg».proof.Proof.Gen.Kernel.Launch
import proofs.«425155_j9552007266387_2_alg».proof.Proof.Gen.Kernel.Points
import proofs.«425155_j9552007266387_2_alg».proof.Proof.Gen.Kernel.Frame
import proofs.«425155_j9552007266387_2_alg».proof.Proof.Gen.KernelIdeal
import proofs.«425155_j9552007266387_2_alg».proof.Proof.Gen.KernelIdeal.Skeleton
import proofs.«425155_j9552007266387_2_alg».proof.Proof.Gen.KernelIdeal.Loops
import proofs.«425155_j9552007266387_2_alg».proof.Proof.Gen.KernelIdeal.Launch
import proofs.«425155_j9552007266387_2_alg».proof.Proof.Gen.KernelIdeal.Points
import proofs.«425155_j9552007266387_2_alg».proof.Proof.Gen.KernelIdeal.Frame
import proofs.«425155_j9552007266387_2_alg».proof.Proof.Gen.ReferenceIdeal
import proofs.«425155_j9552007266387_2_alg».proof.Proof.Gen.Pre_finite_inputs
import proofs.«425155_j9552007266387_2_alg».proof.Proof.Gen.ReferenceIdeal.Run
import proofs.«425155_j9552007266387_2_alg».proof.Proof.Gen.ReferenceIdeal.Read
import proofs.«425155_j9552007266387_2_alg».proof.Proof.Spec
import proofs.«425155_j9552007266387_2_alg».proof.Proof.PreFacts
import proofs.«425155_j9552007266387_2_alg».proof.Proof.RefValue
import proofs.«425155_j9552007266387_2_alg».proof.Proof.Array
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with `G` of the (agreeing) arguments: the kernel by its run read block by block, the
    reference by its run read operation by operation. -/
theorem algebraic : Cert.algebraic_KernelIdeal_ReferenceIdeal := by
  intro m ρ m' ρ' hpre hagree
  have hfacts := fun c => Cert.PreFacts.of_pre _ _ _ _ (hpre c)
  have hok : ∀ c, Cert.KArray.Ok m c := fun c => ⟨(hfacts c).1, (hfacts c).2.1, (hfacts c).2.2.2⟩
  refine ⟨fun c => Cert.Spec.G (Cert.Entry.xA m c) (Cert.Entry.vA m c) (Cert.Entry.bA m c) (Cert.Entry.iA m c),
    Cert.KArray.run m ρ hok, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v20_eq _ _ _ _).trans (Cert.RefValue.ref_eq _ _ _ _ (hfacts c).2.2.2)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
